-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S16x512x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S8192x4096 : S16x512x64x64.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S8192x4096_S16x512x64x64 : S8192x4096.ShapeCasts S16x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S_ : Shape := ⟨0, ![]⟩
abbrev S16x512 : Shape := ⟨2, ![16, 512]⟩
abbrev S16x512x1 : Shape := ⟨3, ![16, 512, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S_, .f32⟩
  | .hbm, ⟨5, _⟩ => ⟨S16x512, .f32⟩
  | .hbm, ⟨6, _⟩ => ⟨S16x512x1, .f32⟩
  | .hbm, ⟨7, _⟩ => ⟨S_, .f32⟩
  | .hbm, ⟨8, _⟩ => ⟨S16x512x1, .f32⟩
  | .hbm, ⟨9, _⟩ => ⟨S16x512x1, .f32⟩
  | .hbm, ⟨10, _⟩ => ⟨S_, .i32⟩
  | .hbm, ⟨11, _⟩ => ⟨S_, .f32⟩
  | .hbm, ⟨12, _⟩ => ⟨S16x512, .f32⟩
  | .hbm, ⟨13, _⟩ => ⟨S16x512x1, .f32⟩
  | .hbm, ⟨14, _⟩ => ⟨S_, .f32⟩
  | .hbm, ⟨15, _⟩ => ⟨S16x512x1, .f32⟩
  | .hbm, ⟨16, _⟩ => ⟨S16x512x1, .f32⟩
  | .hbm, ⟨17, _⟩ => ⟨S16x512x4096, .f32⟩
  | .hbm, ⟨18, _⟩ => ⟨S16x512x4096, .f32⟩
  | .hbm, ⟨19, _⟩ => ⟨S16x512x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x512, .f32⟩
  | .hbm, ⟨25, _⟩ => ⟨S16x512x1, .f32⟩
  | .hbm, ⟨26, _⟩ => ⟨S16x512x1, .f32⟩
  | .hbm, ⟨27, _⟩ => ⟨S16x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S16x512x1, .f32⟩
  | .hbm, ⟨33, _⟩ => ⟨S16x512x1, .f32⟩
  | .hbm, ⟨34, _⟩ => ⟨S16x512x1, .f32⟩
  | .hbm, ⟨35, _⟩ => ⟨S_, .f32⟩
  | .hbm, ⟨36, _⟩ => ⟨S16x512x1, .f32⟩
  | .hbm, ⟨37, _⟩ => ⟨S16x512x1, .f32⟩
  | .hbm, ⟨38, _⟩ => ⟨S_, .f32⟩
  | .hbm, ⟨39, _⟩ => ⟨S16x512, .f32⟩
  | .hbm, ⟨40, _⟩ => ⟨S16x512x1, .f32⟩
  | .hbm, ⟨41, _⟩ => ⟨S_, .f32⟩
  | .hbm, ⟨42, _⟩ => ⟨S16x512x1, .f32⟩
  | .hbm, ⟨43, _⟩ => ⟨S16x512x1, .f32⟩
  | .hbm, ⟨44, _⟩ => ⟨S_, .i32⟩
  | .hbm, ⟨45, _⟩ => ⟨S_, .f32⟩
  | .hbm, ⟨46, _⟩ => ⟨S16x512, .f32⟩
  | .hbm, ⟨47, _⟩ => ⟨S16x512x1, .f32⟩
  | .hbm, ⟨48, _⟩ => ⟨S_, .f32⟩
  | .hbm, ⟨49, _⟩ => ⟨S16x512x1, .f32⟩
  | .hbm, ⟨50, _⟩ => ⟨S16x512x1, .f32⟩
  | .hbm, ⟨51, _⟩ => ⟨S16x512x4096, .f32⟩
  | .hbm, ⟨52, _⟩ => ⟨S16x512x4096, .f32⟩
  | .hbm, ⟨53, _⟩ => ⟨S16x512x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x512, .f32⟩
  | .hbm, ⟨59, _⟩ => ⟨S16x512x1, .f32⟩
  | .hbm, ⟨60, _⟩ => ⟨S16x512x1, .f32⟩
  | .hbm, ⟨61, _⟩ => ⟨S16x512x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S16x512x1, .f32⟩
  | .hbm, ⟨67, _⟩ => ⟨S16x512x1, .f32⟩
  | .hbm, ⟨68, _⟩ => ⟨S16x512x1, .f32⟩
  | .hbm, ⟨69, _⟩ => ⟨S_, .f32⟩
  | .hbm, ⟨70, _⟩ => ⟨S16x512x1, .f32⟩
  | .hbm, ⟨71, _⟩ => ⟨S16x512x1, .f32⟩
  | .hbm, ⟨72, _⟩ => ⟨S16x512x4096, .f32⟩
  | .hbm, ⟨73, _⟩ => ⟨S16x512x4096, .f32⟩
  | .hbm, ⟨74, _⟩ => ⟨S16x512x4096, .f32⟩
  | .hbm, ⟨75, _⟩ => ⟨S16x512x4096, .f32⟩
  | .hbm, ⟨76, _⟩ => ⟨S16x512x4096, .f32⟩
  | .hbm, ⟨77, _⟩ => ⟨S16x512x4096, .f32⟩
  | .hbm, ⟨78, _⟩ => ⟨S16x512x4096, .f32⟩
  | .hbm, ⟨79, _⟩ => ⟨S16x512x4096, .f32⟩
  | .hbm, ⟨80, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_cst_3 : Ref sig .tc := ⟨.hbm, 28, rfl⟩
abbrev main_call0_call0_v13 : Ref sig .tc := ⟨.hbm, 29, rfl⟩
abbrev main_call0_call0_cst_4 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_v0 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_v12 : Ref sig .tc := ⟨.hbm, 43, rfl⟩
abbrev main_c_4 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_cst_0 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_cst_1 : Ref sig .tc := ⟨.hbm, 55, rfl⟩
abbrev main_call1_call0_v8 : Ref sig .tc := ⟨.hbm, 56, rfl⟩
abbrev main_call1_call0_cst_2 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_call0_v12 : Ref sig .tc := ⟨.hbm, 61, rfl⟩
abbrev main_call1_call0_cst_3 : Ref sig .tc := ⟨.hbm, 62, rfl⟩
abbrev main_call1_call0_v13 : Ref sig .tc := ⟨.hbm, 63, rfl⟩
abbrev main_call1_call0_cst_4 : Ref sig .tc := ⟨.hbm, 64, rfl⟩
abbrev main_call1_call0_call0_v0 : Ref sig .tc := ⟨.hbm, 65, rfl⟩
abbrev main_call1_call0_call0_v1 : Ref sig .tc := ⟨.hbm, 66, rfl⟩
abbrev main_call1_v0 : Ref sig .tc := ⟨.hbm, 67, rfl⟩
abbrev main_v13 : Ref sig .tc := ⟨.hbm, 68, rfl⟩
abbrev main_cst_5 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x4096_S16x512_d2 : S16x512x4096.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x4096_0_1_2 : S16x512x1.BroadcastsInDim S16x512x4096 (![0, 1, 2] : Fin 3 → Fin S16x512x4096.rank)
  shapeCasts_S16x512x4096_S16x512x64x64 : S16x512x4096.ShapeCasts S16x512x64x64

variable [Facts₀]

class Facts : Prop extends Facts₀ where

variable [Facts]
-- ==== Proof.AdaRow.lean ====
/-
  Adaptive instance normalisation of one row, on the extended reals.

  A row `u` of `n` entries has the mean `(∑ u) / N`, the deviations `u k - mean u`, the unbiased variance
  `(∑ dev²) / (N - 1)` and the standard deviation `max (√var) ε`, where `N`, `N - 1` and `ε` are what the three
  float words `4096.0`, `4095.0` and `9.99999974e-6` denote. The normalised row carries `u`'s deviations to `v`'s
  scale and mean. The two programs write the rescaling differently: one multiplies the deviation by the
  quotient of the two standard deviations, the other divides the deviation by `u`'s standard deviation and then
  multiplies by `v`'s. Since a standard deviation is at least `ε > 0` it is never zero, so each quotient is the
  product with the inverse, and the two forms agree by commutativity and associativity of the product alone:
  no entry has to be finite.
-/
import Idealize.ShloMosaic.PureOps.Ideal

noncomputable section

open scoped BigOperators

namespace Cert.AdaIN

open Idealize.ShloMosaic

/-- What the word `4096.0` denotes: the row length. -/
def cN : EReal := Ideal.ofBits .f32 0x45800000#32
/-- What the word `4095.0` denotes: the unbiased variance's divisor. -/
def cN1 : EReal := Ideal.ofBits .f32 0x457FF000#32
/-- What the word `9.99999974e-6` denotes: the floor under a standard deviation. -/
def eps : EReal := Ideal.ofBits .f32 0x3727C5AC#32

variable {n : ℕ}

/-- The mean of a row. -/
def mean (u : Fin n → EReal) : EReal := Ideal.div (∑ k, u k) cN
/-- An entry's deviation from its row's mean. -/
def dev (u : Fin n → EReal) (k : Fin n) : EReal := u k - mean u
/-- The unbiased variance of a row. -/
def var (u : Fin n → EReal) : EReal := Ideal.div (∑ k, dev u k * dev u k) cN1
/-- The standard deviation of a row, floored at `ε`. -/
def std (u : Fin n → EReal) : EReal := max (Ideal.sqrt (var u)) eps

/-- The normalised row, the deviation times the quotient of the standard deviations. -/
def scaledByQuotient (u v : Fin n → EReal) (k : Fin n) : EReal := dev u k * Ideal.div (std v) (std u) + mean v
/-- The normalised row, the deviation divided by its own standard deviation, then times the other. -/
def dividedThenScaled (u v : Fin n → EReal) (k : Fin n) : EReal := Ideal.div (dev u k) (std u) * std v + mean v

theorem cN_eq : cN = ((4096 : ℝ) : EReal) := by
  unfold cN; simp [Ideal.ofBits, Ideal.ieee, -EReal.coe_mul]; norm_num

theorem cN1_eq : cN1 = ((4095 : ℝ) : EReal) := by
  unfold cN1; simp [Ideal.ofBits, Ideal.ieee, -EReal.coe_mul]; norm_num

/-- The floor is a positive real. -/
theorem eps_pos : 0 < eps := by
  unfold eps; simp [Ideal.ofBits, Ideal.ieee, -EReal.coe_mul]

/-- A floored standard deviation is never zero. -/
theorem std_ne_zero (u : Fin n → EReal) : std u ≠ 0 :=
  (lt_of_lt_of_le eps_pos (le_max_right _ _)).ne'

/-- Off a zero divisor the quotient is the product with the inverse. -/
theorem div_of_ne {x y : EReal} (h : y ≠ 0) : Ideal.div x y = x * y⁻¹ := by
  unfold Ideal.div; rw [if_neg h]

/-- The two ways of rescaling a deviation agree, at every row, infinite entries included. -/
theorem scaledByQuotient_eq (u v : Fin n → EReal) (k : Fin n) :
    scaledByQuotient u v k = dividedThenScaled u v k := by
  unfold scaledByQuotient dividedThenScaled
  rw [div_of_ne (std_ne_zero u), div_of_ne (std_ne_zero u), mul_comm (std v) _, ← mul_assoc]

/-- The row length less the integer one is the variance's divisor: `4096 - 1 = 4095`. -/
theorem cN_sub_one : cN - (((1#32 : BitVec 32).toInt : ℝ) : EReal) = cN1 := by
  rw [cN_eq, cN1_eq, ← EReal.coe_sub]
  norm_num

/-- The variance's divisor is above what the zero word denotes. -/
theorem cmp_cN1_pos : Ideal.cmp .ogt cN1 (Ideal.ofBits .f32 0x00000000#32) = 1#1 := by
  rw [cN1_eq]
  simp [Ideal.cmp, Ideal.ofBits, Ideal.ieee]

end Cert.AdaIN

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelRow.lean ====
/-
  The kernel's block arithmetic, read at one entry.

  A loaded pair of `[256, 4096]` blocks `x`, `z` is normalised row by row: a row's sum is a lane sum kept as
  a `[256, 1]` column, the mean is that column over the row length, the deviations are the block less the
  mean column spread back over the lanes, the variance is the lane sum of the squared deviations over the row
  length less one, and the standard deviation is the larger of the variance's root and a small floor. The
  result is the deviation of `x` times the quotient of the two standard deviations, plus the mean of `z`.
  Read at the entry `(p, q)` every column is read at row `p`, every lane sum is the `Fin 4096`-indexed sum
  over row `p`, and the whole is the specification's row function of row `p` of `x` and row `p` of `z` at `q`.
-/
import proofs.«172960_j67224828117169_1_alg».proof.Proof.Gen.KernelIdeal.Skeleton
import proofs.«172960_j67224828117169_1_alg».proof.Proof.AdaRow
import proofs.«172960_j67224828117169_1_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Row

open Idealize.ShloMosaic Idealize.ShloMosaic.ValueIdx Cert.KernelIdeal Cert.LibKeepdims

/-! ## A lane sum kept as a column -/

/-- The lane sum of a block, kept as a column: at `(p, u)` it is the sum of row `p`. -/
theorem laneSumCol_apply (x : FVec Ideal S256x4096 .f32) (hr : S256x4096.Reduces [1] S256)
    (hφ : FKind.Formats .f32) (hacc : (0x00000000#32 : BitVec 32) = FKind.add.neutral .f32 hφ)
    (hc : S256.ShapeCasts S256x1) (p : Fin 256) (u : Fin 1) :
    shapeCast S256x1 (multiReduction (F := Ideal) .add [1] S256 x 0x00000000#32 hr hφ hacc) hc (ix2 p u)
      = ∑ k : Fin 4096, x (ix2 p k) := by
  refine (shapeCast_a_a1_apply _ hc p u).trans ?_
  refine (Ideal.multiReduction_add_single x _ hr hφ hacc (ix1 p)).trans ?_
  refine Finset.sum_congr rfl fun k _ => congrArg x ?_
  funext a
  match a with
  | ⟨0, _⟩ => rfl
  | ⟨1, _⟩ => rfl

/-! ## The columns and blocks the body builds -/

/-- The row means of a block, as a column. -/
def meanCol (x : FVec Ideal S256x4096 .f32) : FVec Ideal S256x1 .f32 :=
  divf (shapeCast S256x1 (multiReduction (F := Ideal) .add [1] S256 x 0x00000000#32 Gen.reduces_S256x4096_S256 (.inl rfl) rfl) Gen.shapeCasts_S256_S256x1)
    (broadcast S256x1 (Scalar.ofBits (F := Ideal) .f32 0x45800000#32))

/-- The block less its row means. -/
def devBlk (x : FVec Ideal S256x4096 .f32) : FVec Ideal S256x4096 .f32 :=
  subf x (broadcastTo S256x4096 (meanCol x) Gen.broadcasts_S256x1_S256x4096)

/-- The rows' unbiased variances, as a column. -/
def varCol (x : FVec Ideal S256x4096 .f32) : FVec Ideal S256x1 .f32 :=
  divf (shapeCast S256x1 (multiReduction (F := Ideal) .add [1] S256 (mulf (devBlk x) (devBlk x)) 0x00000000#32 Gen.reduces_S256x4096_S256 (.inl rfl) rfl) Gen.shapeCasts_S256_S256x1)
    (broadcast S256x1 (Scalar.ofBits (F := Ideal) .f32 0x457FF000#32))

/-- The rows' floored standard deviations, as a column. -/
def stdCol (x : FVec Ideal S256x4096 .f32) : FVec Ideal S256x1 .f32 :=
  maximumf (sqrt (varCol x)) (broadcast S256x1 (Scalar.ofBits (F := Ideal) .f32 0x3727C5AC#32))

/-- The body's result from the two blocks. -/
def body (x z : FVec Ideal S256x4096 .f32) : FVec Ideal S256x4096 .f32 :=
  addf (mulf (devBlk x) (broadcastTo S256x4096 (divf (stdCol z) (stdCol x)) Gen.broadcasts_S256x1_S256x4096))
    (broadcastTo S256x4096 (meanCol z) Gen.broadcasts_S256x1_S256x4096)

/-- The printed payload is that result of the two loaded blocks (a cast of a block to its own shape is the block). -/
theorem pay_eq (x0 z0 : Vec Ideal S256x4096 .f32) : Gen.k0_pay1 (F := Ideal) x0 z0 = body x0 z0 := by
  have h : Gen.k0_pay1 (F := Ideal) x0 z0
      = body (shapeCast S256x4096 x0 Gen.shapeCasts_S256x4096_S256x4096) (shapeCast S256x4096 z0 Gen.shapeCasts_S256x4096_S256x4096) := rfl
  rw [shapeCast_self, shapeCast_self] at h
  exact h

/-! ## Each of them at an entry -/

/-- The mean column at row `p` is the mean of row `p`. -/
theorem meanCol_apply (x : FVec Ideal S256x4096 .f32) (p : Fin 256) (u : Fin 1) :
    meanCol x (ix2 p u) = Cert.AdaIN.mean (fun k : Fin 4096 => x (ix2 p k)) := by
  exact congrArg (fun s : EReal => Ideal.div s Cert.AdaIN.cN) (laneSumCol_apply x _ _ _ _ p u)

/-- The deviation block at `(p, q)` is entry `q`'s deviation from the mean of row `p`. -/
theorem devBlk_apply (x : FVec Ideal S256x4096 .f32) (p : Fin 256) (q : Fin 4096) :
    devBlk x (ix2 p q) = Cert.AdaIN.dev (fun k : Fin 4096 => x (ix2 p k)) q := by
  show x (ix2 p q) - broadcastTo S256x4096 (meanCol x) Gen.broadcasts_S256x1_S256x4096 (ix2 p q)
    = x (ix2 p q) - Cert.AdaIN.mean (fun k : Fin 4096 => x (ix2 p k))
  rw [broadcastTo_a1_ab_apply, meanCol_apply]

/-- The variance column at row `p` is the unbiased variance of row `p`. -/
theorem varCol_apply (x : FVec Ideal S256x4096 .f32) (p : Fin 256) (u : Fin 1) :
    varCol x (ix2 p u) = Cert.AdaIN.var (fun k : Fin 4096 => x (ix2 p k)) := by
  refine congrArg (fun s : EReal => Ideal.div s Cert.AdaIN.cN1)
    ((laneSumCol_apply (mulf (devBlk x) (devBlk x)) _ _ _ _ p u).trans (Finset.sum_congr rfl fun k _ => ?_))
  show devBlk x (ix2 p k) * devBlk x (ix2 p k) = _
  rw [devBlk_apply]

/-- The standard-deviation column at row `p` is the floored standard deviation of row `p`. -/
theorem stdCol_apply (x : FVec Ideal S256x4096 .f32) (p : Fin 256) (u : Fin 1) :
    stdCol x (ix2 p u) = Cert.AdaIN.std (fun k : Fin 4096 => x (ix2 p k)) := by
  show max (Ideal.sqrt (varCol x (ix2 p u))) (Ideal.ofBits .f32 0x3727C5AC#32)
    = max (Ideal.sqrt (Cert.AdaIN.var (fun k : Fin 4096 => x (ix2 p k)))) Cert.AdaIN.eps
  rw [varCol_apply]
  rfl

/-- The body's result at `(p, q)` is the specification's row function of row `p` of the two blocks, at `q`. -/
theorem body_apply (x z : FVec Ideal S256x4096 .f32) (p : Fin 256) (q : Fin 4096) :
    body x z (ix2 p q)
      = Cert.AdaIN.scaledByQuotient (fun k : Fin 4096 => x (ix2 p k)) (fun k : Fin 4096 => z (ix2 p k)) q := by
  show devBlk x (ix2 p q) * broadcastTo S256x4096 (divf (stdCol z) (stdCol x)) Gen.broadcasts_S256x1_S256x4096 (ix2 p q)
      + broadcastTo S256x4096 (meanCol z) Gen.broadcasts_S256x1_S256x4096 (ix2 p q)
    = Cert.AdaIN.dev (fun k : Fin 4096 => x (ix2 p k)) q
        * Ideal.div (Cert.AdaIN.std (fun k : Fin 4096 => z (ix2 p k))) (Cert.AdaIN.std (fun k : Fin 4096 => x (ix2 p k)))
      + Cert.AdaIN.mean (fun k : Fin 4096 => z (ix2 p k))
  rw [broadcastTo_a1_ab_apply, broadcastTo_a1_ab_apply, devBlk_apply, meanCol_apply]
  show _ * Ideal.div (stdCol z (ix2 p (0 : Fin 1))) (stdCol x (ix2 p (0 : Fin 1))) + _ = _
  rw [stdCol_apply, stdCol_apply]

/-! ## The payload at an entry -/

/-- The body at entry `(p, q)` is the specification's row function of row `p` of the two loaded blocks. -/
theorem pay_apply (x0 z0 : Vec Ideal S256x4096 .f32) (p : Fin 256) (q : Fin 4096) :
    Gen.k0_pay1 (F := Ideal) x0 z0 (ix2 p q)
      = Cert.AdaIN.scaledByQuotient (fun k : Fin 4096 => x0 (ix2 p k)) (fun k : Fin 4096 => z0 (ix2 p k)) q := by
  rw [pay_eq]
  exact body_apply x0 z0 p q

end Cert.KernelIdeal.Row

end
-- ==== Proof.KernelValue.lean ====
/-
  What the kernel program leaves in its result, as a function of its two arguments.

  The program views each `[16, 512, 64, 64]` argument as an `[8192, 4096]` array, one row per pair of leading
  coordinates; the pipelined region normalises the rows, 256 at a grid point; the result is viewed back as
  `[16, 512, 64, 64]`. Every window of the region has the same index map (block row `t`, block column `0`), so
  at point `t` the body sees rows `256 t … 256 t + 255` of both inputs and writes the same rows of the output:
  the entry `(p, q)` of what it writes is the specification's row function of row `256 t + p` at `q`. The 32
  blocks cover the array (row `r` lies in the block of point `r / 256`), so after the region the output array is
  the row function of every row; the reshapes before and after the region are casts of the same data.
-/
import proofs.«172960_j67224828117169_1_alg».proof.Proof.Gen.KernelIdeal.Frame
import proofs.«172960_j67224828117169_1_alg».proof.Proof.KernelRow

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable (m : (ℓ : Loc nD τ sig) → Buf (Elt Ideal) ℓ) (ρ : Dev nD → PrngReg)

/-! ## The result as a function of the arguments -/

/-- Every row of a [8192, 4096] array pair normalised. -/
def rows2 (a0 a1 : S8192x4096.Idx → EReal) : S8192x4096.Idx → EReal := fun i =>
  Cert.AdaIN.scaledByQuotient (fun k : Fin 4096 => a0 (ix2 (i 0) k)) (fun k : Fin 4096 => a1 (ix2 (i 0) k)) (i 1)

/-- What the program leaves in its result, as a function of the two argument arrays. -/
def result (a0 a1 : S16x512x64x64.Idx → EReal) : S16x512x64x64.Idx → EReal :=
  shapeCast S16x512x64x64 (rows2 (shapeCast S8192x4096 a0 shapeCasts_S16x512x64x64_S8192x4096) (shapeCast S8192x4096 a1 shapeCasts_S16x512x64x64_S8192x4096)) shapeCasts_S8192x4096_S16x512x64x64

/-! ## One point's block -/

/-- The offsets of a whole-block access are zero. -/
theorem zeroOffsets : (![0, 0] : Fin 2 → Nat) = fun _ => 0 := funext fun a => by fin_cases a <;> rfl

/-- The three windows have one index map: at point `t` the block row is `t` and the block column is `0`. -/
theorem blockIndex : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's payload of two blocks that are rows of two arrays: if row `p` of each block is row `i 0` of its
    array and `i 1` is the column `q`, the payload at `(p, q)` is the arrays' normalised rows at `i`. -/
theorem pay_rows (x0 z0 : Vec Ideal S256x4096 .f32) (a0 a1 : S8192x4096.Idx → EReal) (p : Fin 256) (q : Fin 4096)
    (i : S8192x4096.Idx)
    (h0 : ∀ k : Fin 4096, x0 (ix2 p k) = a0 (ix2 (i 0) k))
    (h1 : ∀ k : Fin 4096, z0 (ix2 p k) = a1 (ix2 (i 0) k))
    (hq : (i 1).val = q.val) :
    k0_pay1 (F := Ideal) x0 z0 (ix2 p q) = rows2 a0 a1 i := by
  rw [Row.pay_apply]
  unfold rows2
  have e0 : (fun k : Fin 4096 => x0 (ix2 p k)) = fun k : Fin 4096 => a0 (ix2 (i 0) k) := funext h0
  have e1 : (fun k : Fin 4096 => z0 (ix2 p k)) = fun k : Fin 4096 => a1 (ix2 (i 0) k) := funext h1
  have eq : q = i 1 := Fin.ext hq.symm
  rw [e0, e1, eq]

/-- WHAT POINT `t` WRITES BACK is block `t` of the normalised rows of the two arrays as the region finds them. -/
theorem flushedRows (c : Dev nD) (t : Fin cfg0.N) :
    (dats m 0 c).flushed 2 t = ((cfg0.win 2).blk t).view.read (Elt Ideal) (rows2 (V m c main_v0) (V m c main_v1)) := by
  show (cfg0.win 2).cut (grid0.coords t) ((dats m 0 c).after 2 t) = _
  rw [after0_2]
  unfold out0_2
  rw [View.canon_unit_zero zeroOffsets]
  simp only [View.ld_unit_zero (S := S256x4096) zeroOffsets]
  obtain ⟨e0, e1, e2, e3, e4, e5⟩ := blockIndex t
  funext j
  obtain ⟨p, q, rfl⟩ : ∃ (p : Fin 256) (q : Fin 4096), j = ix2 p q := ⟨j 0, j 1, eq_ix2 j⟩
  show k0_pay1 (F := Ideal) (iblk m c 0 t) (iblk m c 1 t) (ix2 p q)
    = rows2 (V m c main_v0) (V m c main_v1) (((cfg0.win 2).blk t).view.emb (ix2 p q))
  refine pay_rows (iblk m c 0 t) (iblk m c 1 t) (V m c main_v0) (V m c main_v1) p q (((cfg0.win 2).blk t).view.emb (ix2 p q)) ?_ ?_ ?_
  · intro k
    show V m c main_v0 (((cfg0.win 0).blk t).view.emb (ix2 p k)) = V m c main_v0 (ix2 ((((cfg0.win 2).blk t).view.emb (ix2 p q)) 0) k)
    refine congrArg (V m c main_v0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 4096 + 1 * k.val = k.val; omega
  · intro k
    show V m c main_v1 (((cfg0.win 1).blk t).view.emb (ix2 p k)) = V m c main_v1 (ix2 ((((cfg0.win 2).blk t).view.emb (ix2 p q)) 0) k)
    refine congrArg (V m c main_v1) (funext fun a => Fin.ext ?_)
    match a with
    | ⟨0, _⟩ => show win0_1.index t (0 : Fin 2) * 256 + 1 * p.val = win0_2.index t (0 : Fin 2) * 256 + 1 * p.val; omega
    | ⟨1, _⟩ => show win0_1.index t (1 : Fin 2) * 4096 + 1 * k.val = k.val; omega
  · show win0_2.index t (1 : Fin 2) * 4096 + 1 * q.val = q.val
    omega

/-! ## From the blocks to the array -/

/-- An index of the array is in point `t`'s block iff each coordinate is in the block's range on its axis. -/
theorem mem_block (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- Row `r` lies in the block of point `r / 256`: the 32 blocks cover the array. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨e0, e1, e2, e3, e4, e5⟩ := blockIndex ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_block]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    omega
  | ⟨1, _⟩ =>
    show win0_2.index ⟨(i 0).val / 256, hlt⟩ (1 : Fin 2) * 4096 ≤ (i 1).val ∧ (i 1).val < win0_2.index ⟨(i 0).val / 256, hlt⟩ (1 : Fin 2) * 4096 + 4096
    omega

/-- THE OUTPUT ARRAY after the region: the normalised rows of the two input arrays as the region finds them. -/
theorem finalRows (c : Dev nD) : (dats m 0 c).arrAt 2 cfg0.N = rows2 (V m c main_v0) (V m c main_v1) :=
  (dats m 0 c).arrAt_eq_of_cover 2 (rows2 (V m c main_v0) (V m c main_v1)) (fun t _ => flushedRows m c t) covered

/-! ## The reshapes before the region -/

/-- The region finds `main_v0` at the first argument viewed as `[8192, 4096]`. -/
theorem entry_v0 (c : Dev nD) : (V m c main_v0 : S8192x4096.Idx → EReal)
    = shapeCast S8192x4096 (m ((c.tc : Thread nD τ).loc main_arg0)) shapeCasts_S16x512x64x64_S8192x4096 := by
  show StableHlo.after hostOps0 (fun b => m (c, b)) (Proc.devRef .tc main_v0) = _
  after_results
  rfl

/-- The region finds `main_v1` at the second argument viewed as `[8192, 4096]`. -/
theorem entry_v1 (c : Dev nD) : (V m c main_v1 : S8192x4096.Idx → EReal)
    = shapeCast S8192x4096 (m ((c.tc : Thread nD τ).loc main_arg1)) shapeCasts_S16x512x64x64_S8192x4096 := by
  show StableHlo.after hostOps0 (fun b => m (c, b)) (Proc.devRef .tc main_v1) = _
  after_results
  rfl

/-! ## The reshape after the region -/

/-- After the line that follows the region, `main_v3` holds the result function of the two arguments. -/
theorem tail_v3 (c : Dev nD) : Pipeline.afterTail₀ cfgs (dats m) 0 (V0 m) [hostOps1] c main_v3
    = result (m ((c.tc : Thread nD τ).loc main_arg0)) (m ((c.tc : Thread nD τ).loc main_arg1)) := by
  unfold Pipeline.afterTail₀
  show StableHlo.after hostOps1 _ (Proc.devRef .tc main_v3) = _
  after_results
  rw [Pipeline.withArrays_arr spec0 launch0.win.arr_inj c _ _ 2, finalRows, entry_v0, entry_v1]
  rfl

/-! ## The run, read -/

/-- The frame run re-posted: the result at its function of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_v3 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RowValue

end
-- ==== Proof.RefLine.lean ====
/-
  The reference program as one straight line of host operations, and its run.

  @main calls the outlined standard deviation twice (once per argument); that function calls the outlined
  variance, which ends in the outlined `where`. Unfolding the three definitions at their call sites leaves 79
  operations in single-assignment order: the two reshapes of the arguments to [16, 512, 4096], the first row
  mean, the first call's 24 operations (row mean again, deviations, their squares, the divisor 4096 - 1, the
  sum of squares over it, the guard that the divisor is positive, the select under it, the square root), the
  floor, the second row mean, the second call's 24, its floor, then the normalisation and the reshape back.
  Every weakly fair execution of @main terminates with each buffer at the fold of these operations over the
  launch contents.
-/
import proofs.«172960_j67224828117169_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 79 operations in order, the calls unfolded. -/
abbrev ops : List (HloOp τ sig (Elt F)) :=
  [ reshape main_arg0 main_v0 rfl shapeCasts_S16x512x64x64_S16x512x4096,
    reshape main_arg1 main_v1 rfl shapeCasts_S16x512x64x64_S16x512x4096,
    nullary main_cst (constant S_ .f32 0x00000000#32),
    binary main_v0 main_cst main_v2 (fun x v => Host.reduceAdd x v reducesTo_S16x512x4096_S16x512_d2 h_S_),
    unary main_v2 main_v3 (broadcastInDim S16x512x1 ![0, 1] bcast_S16x512_S16x512x1_0_1),
    nullary main_cst_0 (constant S_ .f32 0x45800000#32),
    unary main_cst_0 main_v4 (broadcastInDim S16x512x1 ![] bcast_S_S16x512x1),
    binary main_v3 main_v4 main_v5 Host.divf,
    nullary main_c (constantI S_ 32 1#32),
    TRef.nullary main_call0.call0.cst (constant S_ .f32 0x00000000#32),
    TRef.binary (.of main_v0) main_call0.call0.cst main_call0.call0.v0 (fun x v => Host.reduceAdd x v reducesTo_S16x512x4096_S16x512_d2 h_S_),
    TRef.unary main_call0.call0.v0 main_call0.call0.v1 (broadcastInDim S16x512x1 ![0, 1] bcast_S16x512_S16x512x1_0_1),
    TRef.nullary main_call0.call0.cst_0 (constant S_ .f32 0x45800000#32),
    TRef.unary main_call0.call0.cst_0 main_call0.call0.v2 (broadcastInDim S16x512x1 ![] bcast_S_S16x512x1),
    TRef.binary main_call0.call0.v1 main_call0.call0.v2 main_call0.call0.v3 Host.divf,
    TRef.unary main_call0.call0.v3 main_call0.call0.v4 (broadcastInDim S16x512x4096 ![0, 1, 2] bcast_S16x512x1_S16x512x4096_0_1_2),
    TRef.binary (.of main_v0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x45800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16x512x4096_S16x512_d2 h_S_),
    TRef.unary main_call0.call0.v9 main_call0.call0.v10 (broadcastInDim S16x512x1 ![0, 1] bcast_S16x512_S16x512x1_0_1),
    TRef.unary main_call0.call0.v8 main_call0.call0.v11 (broadcastInDim S16x512x1 ![] bcast_S_S16x512x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S16x512x1 ![] bcast_S_S16x512x1),
    TRef.ternary main_call0.call0.v13 main_call0.call0.v12 main_call0.call0.call0.v1 main_call0.call0.call0.v2 (fun p a b => select (broadcastInDim S16x512x1 ![] bcast_S_S16x512x1 p) a b),
    TRef.unary main_call0.call0.call0.v2 main_call0.v1 Host.sqrt,
    nullary main_cst_1 (constant S_ .f32 0x3727C5AC#32),
    unary main_cst_1 main_v7 (broadcastInDim S16x512x1 ![] bcast_S_S16x512x1),
    binary main_v6 main_v7 main_v8 maximumf,
    nullary main_cst_2 (constant S_ .f32 0x00000000#32),
    binary main_v1 main_cst_2 main_v9 (fun x v => Host.reduceAdd x v reducesTo_S16x512x4096_S16x512_d2 h_S_),
    unary main_v9 main_v10 (broadcastInDim S16x512x1 ![0, 1] bcast_S16x512_S16x512x1_0_1),
    nullary main_cst_3 (constant S_ .f32 0x45800000#32),
    unary main_cst_3 main_v11 (broadcastInDim S16x512x1 ![] bcast_S_S16x512x1),
    binary main_v10 main_v11 main_v12 Host.divf,
    nullary main_c_4 (constantI S_ 32 1#32),
    TRef.nullary main_call1.call0.cst (constant S_ .f32 0x00000000#32),
    TRef.binary (.of main_v1) main_call1.call0.cst main_call1.call0.v0 (fun x v => Host.reduceAdd x v reducesTo_S16x512x4096_S16x512_d2 h_S_),
    TRef.unary main_call1.call0.v0 main_call1.call0.v1 (broadcastInDim S16x512x1 ![0, 1] bcast_S16x512_S16x512x1_0_1),
    TRef.nullary main_call1.call0.cst_0 (constant S_ .f32 0x45800000#32),
    TRef.unary main_call1.call0.cst_0 main_call1.call0.v2 (broadcastInDim S16x512x1 ![] bcast_S_S16x512x1),
    TRef.binary main_call1.call0.v1 main_call1.call0.v2 main_call1.call0.v3 Host.divf,
    TRef.unary main_call1.call0.v3 main_call1.call0.v4 (broadcastInDim S16x512x4096 ![0, 1, 2] bcast_S16x512x1_S16x512x4096_0_1_2),
    TRef.binary (.of main_v1) main_call1.call0.v4 main_call1.call0.v5 subf,
    TRef.binary main_call1.call0.v5 main_call1.call0.v5 main_call1.call0.v6 mulf,
    TRef.unary (.of main_c_4) main_call1.call0.v7 (sitofp .f32),
    TRef.nullary main_call1.call0.cst_1 (constant S_ .f32 0x45800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S16x512x4096_S16x512_d2 h_S_),
    TRef.unary main_call1.call0.v9 main_call1.call0.v10 (broadcastInDim S16x512x1 ![0, 1] bcast_S16x512_S16x512x1_0_1),
    TRef.unary main_call1.call0.v8 main_call1.call0.v11 (broadcastInDim S16x512x1 ![] bcast_S_S16x512x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S16x512x1 ![] bcast_S_S16x512x1),
    TRef.ternary main_call1.call0.v13 main_call1.call0.v12 main_call1.call0.call0.v1 main_call1.call0.call0.v2 (fun p a b => select (broadcastInDim S16x512x1 ![] bcast_S_S16x512x1 p) a b),
    TRef.unary main_call1.call0.call0.v2 main_call1.v1 Host.sqrt,
    nullary main_cst_5 (constant S_ .f32 0x3727C5AC#32),
    unary main_cst_5 main_v14 (broadcastInDim S16x512x1 ![] bcast_S_S16x512x1),
    binary main_v13 main_v14 main_v15 maximumf,
    unary main_v5 main_v16 (broadcastInDim S16x512x4096 ![0, 1, 2] bcast_S16x512x1_S16x512x4096_0_1_2),
    binary main_v0 main_v16 main_v17 subf,
    unary main_v8 main_v18 (broadcastInDim S16x512x4096 ![0, 1, 2] bcast_S16x512x1_S16x512x4096_0_1_2),
    binary main_v17 main_v18 main_v19 Host.divf,
    unary main_v15 main_v20 (broadcastInDim S16x512x4096 ![0, 1, 2] bcast_S16x512x1_S16x512x4096_0_1_2),
    binary main_v19 main_v20 main_v21 mulf,
    unary main_v12 main_v22 (broadcastInDim S16x512x4096 ![0, 1, 2] bcast_S16x512x1_S16x512x4096_0_1_2),
    binary main_v21 main_v22 main_v23 addf,
    reshape main_v23 main_v24 rfl shapeCasts_S16x512x4096_S16x512x64x64 ]

set_option maxRecDepth 65536 in
/-- @main is that straight line: the three functions' definitions unfold at their calls and the sequencing of a
    call's body with what follows it computes, so both sides are one chain of steps by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., unary_bufs_sub .., binary_bufs_sub .., unary_bufs_sub .., binary_bufs_sub ..,
    unary_bufs_sub .., binary_bufs_sub .., unary_bufs_sub .., binary_bufs_sub .., unary_bufs_sub .., binary_bufs_sub ..,
    reshape_bufs_sub ..⟩

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefTerm.lean ====
/-
  What the reference's straight line leaves in its result buffer, as one function of the two argument arrays.

  Over [16, 512, 4096] (an image's channel as a row of 4096 entries): a row's sum kept as a column, the mean
  column (the sum over 4096), a column spread back over its rows, the divisor `4096 - 1` computed from the
  integer one, the variance column (the sum of squared deviations over that divisor, selected under the guard
  that the divisor is positive, the other branch a quiet-NaN word), the standard-deviation column (its square
  root floored at the small constant), and the normalised rows: the deviation over its own standard deviation,
  times the other array's standard deviation, plus the other array's mean. The result is that, reshaped back to
  [16, 512, 64, 64], of the two reshaped arguments; the fold of the 79 operations at the result buffer computes
  to exactly this term.
-/
import proofs.«172960_j67224828117169_1_alg».proof.Proof.RefLine

noncomputable section

namespace Cert.ReferenceIdeal.RowValue

open Cert.ReferenceIdeal Cert.ReferenceIdeal.Gen Cert.ReferenceIdeal.Line Idealize.ShloMosaic Idealize.ShloMosaic.TcCoe Idealize.SL.Sem Idealize.ShloMosaic.StableHlo

variable {F : FTy → Type} [FloatOps F]

/-- A column spread back over the 4096 entries of each row. -/
def spread (col : FVec F S16x512x1 .f32) : FVec F S16x512x4096 .f32 :=
  broadcastInDim S16x512x4096 ![0, 1, 2] bcast_S16x512x1_S16x512x4096_0_1_2 col

/-- A scalar as a column. -/
def column {α : Type} (s : S_.Idx → α) : S16x512x1.Idx → α :=
  broadcastInDim S16x512x1 ![] bcast_S_S16x512x1 s

/-- Each row's sum, from the zero word, kept as a column. -/
def sumCol (x : FVec F S16x512x4096 .f32) : FVec F S16x512x1 .f32 :=
  broadcastInDim S16x512x1 ![0, 1] bcast_S16x512_S16x512x1_0_1
    (Host.reduceAdd x (constant S_ .f32 0x00000000#32) reducesTo_S16x512x4096_S16x512_d2 h_S_)

/-- Each row's mean: its sum over the word 4096.0. -/
def meanCol (x : FVec F S16x512x4096 .f32) : FVec F S16x512x1 .f32 :=
  Host.divf (sumCol x) (column (constant S_ .f32 0x45800000#32))

/-- The unbiased divisor as the program computes it: the word 4096.0 less the integer one converted. -/
def lessOne : FVec F S_ .f32 :=
  subf (constant S_ .f32 0x45800000#32) (sitofp .f32 (constantI S_ 32 1#32))

/-- Each row's deviations from its mean. -/
def devs (x : FVec F S16x512x4096 .f32) : FVec F S16x512x4096 .f32 := subf x (spread (meanCol x))

/-- Each row's unbiased variance, under the guard that the divisor is positive. -/
def varCol (x : FVec F S16x512x4096 .f32) : FVec F S16x512x1 .f32 :=
  select (column (cmpf .ogt (lessOne (F := F)) (constant S_ .f32 0x00000000#32)))
    (Host.divf (sumCol (mulf (devs x) (devs x))) (column (lessOne (F := F))))
    (column (constant S_ .f32 0x7FC00000#32))

/-- Each row's standard deviation, floored. -/
def stdCol (x : FVec F S16x512x4096 .f32) : FVec F S16x512x1 .f32 :=
  maximumf (Host.sqrt (varCol x)) (column (constant S_ .f32 0x3727C5AC#32))

/-- The normalised rows of `x` at the scale and mean of `z`'s rows. -/
def rows3 (x z : FVec F S16x512x4096 .f32) : FVec F S16x512x4096 .f32 :=
  addf (mulf (Host.divf (devs x) (spread (stdCol x))) (spread (stdCol z))) (spread (meanCol z))

/-- The program's result as a function of its two arguments. -/
def result (a0 a1 : FVec F S16x512x64x64 .f32) : FVec F S16x512x64x64 .f32 :=
  shapeCast S16x512x64x64
    (rows3 (shapeCast S16x512x4096 a0 shapeCasts_S16x512x64x64_S16x512x4096)
      (shapeCast S16x512x4096 a1 shapeCasts_S16x512x64x64_S16x512x4096))
    shapeCasts_S16x512x4096_S16x512x64x64

set_option maxRecDepth 16384 in
set_option maxHeartbeats 1000000 in
/-- The fold at the result buffer is that function of the fold's starting contents at the two arguments. -/
theorem result_eq (V : Valuation τ sig (Elt F)) :
    after ops V (main_v24 : DevRef τ sig) = result (V (main_arg0 : DevRef τ sig)) (V (main_arg1 : DevRef τ sig)) := by
  after_results_simp
  rfl

set_option maxRecDepth 16384 in
/-- No operation writes the first argument. -/
theorem arg0_eq (V : Valuation τ sig (Elt F)) :
    after ops V (main_arg0 : DevRef τ sig) = V (main_arg0 : DevRef τ sig) := by
  after_results_simp

set_option maxRecDepth 16384 in
/-- No operation writes the second argument. -/
theorem arg1_eq (V : Valuation τ sig (Elt F)) :
    after ops V (main_arg1 : DevRef τ sig) = V (main_arg1 : DevRef τ sig) := by
  after_results_simp

/-- The run, read: the result at `result` of the launched arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (result_eq _), (h c main_arg0).trans (arg0_eq _),
      (h c main_arg1).trans (arg1_eq _)⟩) (run_main m ρ)

end Cert.ReferenceIdeal.RowValue

end
-- ==== Proof.RefRows.lean ====
/-
  The reference's normalised rows read at an entry.

  At the ideal values every named piece of the reference's term, read at row `(b, ch)`, is the specification's
  function of that row: a spread column reads the column's entry of the row; a scalar made a column reads the
  scalar; a row's kept sum is the sum over the row's 4096 entries (the zero word adds nothing); the mean, the
  deviations, the variance (the guard `4096 - 1 > 0` holds, so the select takes the quotient, and `4096 - 1` is
  what the word 4095.0 denotes), the floored standard deviation; and the normalised entry is the deviation
  divided by its row's standard deviation, then scaled and shifted to the other row.
-/
import proofs.«172960_j67224828117169_1_alg».proof.Proof.RefTerm
import proofs.«172960_j67224828117169_1_alg».proof.Proof.AdaRow
import Idealize.ShloMosaic.Lib.ValueIdx
import Idealize.ShloMosaic.Lib.Pipeline.Value
import Idealize.ShloMosaic.PureOps.Ideal.Laws

noncomputable section

open scoped BigOperators

namespace Cert.ReferenceIdeal.RowValue

open Cert.ReferenceIdeal Cert.ReferenceIdeal.Gen Idealize.ShloMosaic Idealize.ShloMosaic.ValueIdx

/-- Row `(b, ch)` of a [16, 512, 4096] array. -/
abbrev row (x : FVec Ideal S16x512x4096 .f32) (b : Fin 16) (ch : Fin 512) : Fin 4096 → EReal :=
  fun k => x (ix3 b ch k)

/-- A spread column reads, anywhere in row `(b, ch)`, the column's entry of that row. -/
theorem spread_apply (col : FVec Ideal S16x512x1 .f32) (b : Fin 16) (ch : Fin 512) (k : Fin 4096) :
    spread col (ix3 b ch k) = col (ix3 b ch (0 : Fin 1)) := by
  unfold spread
  refine broadcastInDim_apply _ _ col (ix3 b ch k) (ix3 b ch (0 : Fin 1)) fun a => ?_
  match a with
  | ⟨0, _⟩ => rfl
  | ⟨1, _⟩ => rfl
  | ⟨2, _⟩ => rfl

/-- A scalar made a column reads the scalar. -/
theorem column_apply {α : Type} (s : S_.Idx → α) (j : S16x512x1.Idx) : column s j = s ix0 := by
  unfold column
  exact broadcastInDim_apply _ _ s j ix0 fun a => a.elim0

/-- A row's kept sum is the sum of the row's entries. -/
theorem sumCol_apply (x : FVec Ideal S16x512x4096 .f32) (b : Fin 16) (ch : Fin 512) :
    sumCol x (ix3 b ch (0 : Fin 1)) = ∑ k : Fin 4096, row x b ch k := by
  unfold sumCol
  rw [broadcastInDim_apply _ _ _ (ix3 b ch (0 : Fin 1)) (ix2 b ch) (fun a => by
    match a with
    | ⟨0, _⟩ => rfl
    | ⟨1, _⟩ => rfl)]
  have hr : S16x512x4096.Reduces [2] S16x512 := by decide
  show Ideal.hostReduceAdd reducesTo_S16x512x4096_S16x512_d2 x (Ideal.ofBits .f32 0x00000000#32) (ix2 b ch) = _
  rw [Ideal.hostReduceAdd_single reducesTo_S16x512x4096_S16x512_d2 hr, Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The mean column at a row is the row's mean. -/
theorem meanCol_apply (x : FVec Ideal S16x512x4096 .f32) (b : Fin 16) (ch : Fin 512) :
    meanCol x (ix3 b ch (0 : Fin 1)) = Cert.AdaIN.mean (row x b ch) := by
  unfold meanCol
  show Ideal.div (sumCol x (ix3 b ch (0 : Fin 1))) (column (constant (F := Ideal) S_ .f32 0x45800000#32) (ix3 b ch (0 : Fin 1))) = _
  rw [sumCol_apply, column_apply]
  rfl

/-- The computed divisor is what the word 4095.0 denotes. -/
theorem lessOne_apply : lessOne (F := Ideal) ix0 = Cert.AdaIN.cN1 :=
  Cert.AdaIN.cN_sub_one

/-- The deviations at an entry. -/
theorem devs_apply (x : FVec Ideal S16x512x4096 .f32) (b : Fin 16) (ch : Fin 512) (k : Fin 4096) :
    devs x (ix3 b ch k) = Cert.AdaIN.dev (row x b ch) k := by
  unfold devs
  show x (ix3 b ch k) - spread (meanCol x) (ix3 b ch k) = _
  rw [spread_apply, meanCol_apply]
  rfl

/-- The variance column at a row is the row's unbiased variance: the guard holds and the select takes the quotient. -/
theorem varCol_apply (x : FVec Ideal S16x512x4096 .f32) (b : Fin 16) (ch : Fin 512) :
    varCol x (ix3 b ch (0 : Fin 1)) = Cert.AdaIN.var (row x b ch) := by
  unfold varCol
  rw [select_apply, column_apply]
  have hg : cmpf .ogt (lessOne (F := Ideal)) (constant S_ .f32 0x00000000#32) ix0 = 1#1 := by
    show Ideal.cmp .ogt (lessOne (F := Ideal) ix0) (Ideal.ofBits .f32 0x00000000#32) = 1#1
    rw [lessOne_apply]
    exact Cert.AdaIN.cmp_cN1_pos
  rw [hg, select_one]
  show Ideal.div (sumCol (mulf (devs x) (devs x)) (ix3 b ch (0 : Fin 1))) (column (lessOne (F := Ideal)) (ix3 b ch (0 : Fin 1))) = _
  rw [sumCol_apply, column_apply, lessOne_apply]
  unfold Cert.AdaIN.var
  refine congrArg (fun s => Ideal.div s Cert.AdaIN.cN1) (Finset.sum_congr rfl fun k _ => ?_)
  show devs x (ix3 b ch k) * devs x (ix3 b ch k) = _
  rw [devs_apply]

/-- The standard-deviation column at a row is the row's floored standard deviation. -/
theorem stdCol_apply (x : FVec Ideal S16x512x4096 .f32) (b : Fin 16) (ch : Fin 512) :
    stdCol x (ix3 b ch (0 : Fin 1)) = Cert.AdaIN.std (row x b ch) := by
  unfold stdCol
  show max (Ideal.sqrt (varCol x (ix3 b ch (0 : Fin 1)))) (column (constant (F := Ideal) S_ .f32 0x3727C5AC#32) (ix3 b ch (0 : Fin 1))) = _
  rw [varCol_apply, column_apply]
  rfl

/-- THE REFERENCE AT AN ENTRY: the deviation over its row's standard deviation, scaled and shifted to the other row. -/
theorem rows3_apply (x z : FVec Ideal S16x512x4096 .f32) (b : Fin 16) (ch : Fin 512) (k : Fin 4096) :
    rows3 x z (ix3 b ch k) = Cert.AdaIN.dividedThenScaled (row x b ch) (row z b ch) k := by
  unfold rows3
  show Ideal.div (devs x (ix3 b ch k)) (spread (stdCol x) (ix3 b ch k)) * spread (stdCol z) (ix3 b ch k)
      + spread (meanCol z) (ix3 b ch k) = _
  rw [devs_apply, spread_apply, spread_apply, spread_apply, stdCol_apply, stdCol_apply, meanCol_apply]
  rfl

end Cert.ReferenceIdeal.RowValue

end
-- ==== Proof.Flatten.lean ====
/-
  The two flattenings of a [16, 512, 64, 64] array, read at an entry.

  One program views the array as 8192 rows of 4096 entries, the other as 16 × 512 rows of 4096 entries; both
  views, and the reshape of a result back to rank four, keep the row-major position. Row `(b, ch)` is row
  `b * 512 + ch` of the flat view, and its entry `k` is the rank-four entry `(b, ch, k / 64, k % 64)`; going back,
  entry `(h, w)` of an image is entry `h * 64 + w` of its row.
-/
import Idealize.ShloMosaic.Lib.ValueIdx
import Idealize.ShloMosaic.Lib.Pipeline.Value

namespace Cert.Flatten

open Idealize.ShloMosaic Idealize.ShloMosaic.ValueIdx

variable {α : Type}

abbrev S4 : Shape := ⟨4, ![16, 512, 64, 64]⟩
abbrev S3 : Shape := ⟨3, ![16, 512, 4096]⟩
abbrev S2 : Shape := ⟨2, ![8192, 4096]⟩

/-- Row `(b, ch)` as a row of the [8192, 4096] view. -/
def rowOf (b : Fin 16) (ch : Fin 512) : Fin 8192 := ⟨b.val * 512 + ch.val, by have := b.isLt; have := ch.isLt; omega⟩
/-- The image row an entry of a flat row lies in. -/
def hi (k : Fin 4096) : Fin 64 := ⟨k.val / 64, by have := k.isLt; omega⟩
/-- Its place in that image row. -/
def lo (k : Fin 4096) : Fin 64 := ⟨k.val % 64, Nat.mod_lt _ (by decide)⟩
/-- Entry `(h, w)` of an image as an entry of its flat row. -/
def colOf (h w : Fin 64) : Fin 4096 := ⟨h.val * 64 + w.val, by have := h.isLt; have := w.isLt; omega⟩

/-- The [8192, 4096] view at entry `k` of row `(b, ch)`. -/
theorem view2_apply (a : S4.Idx → α) (hc : S4.ShapeCasts S2) (b : Fin 16) (ch : Fin 512) (k : Fin 4096) :
    shapeCast S2 a hc (ix2 (rowOf b ch) k) = a (ix4 b ch (hi k) (lo k)) :=
  shapeCast_apply a hc _ _ (by
    rw [Shape.rowMajor_val_four, Shape.rowMajor_val_two]
    show ((b.val * 512 + ch.val) * 64 + k.val / 64) * 64 + k.val % 64 = (b.val * 512 + ch.val) * 4096 + k.val
    omega)

/-- The [16, 512, 4096] view at entry `k` of row `(b, ch)`. -/
theorem view3_apply (a : S4.Idx → α) (hc : S4.ShapeCasts S3) (b : Fin 16) (ch : Fin 512) (k : Fin 4096) :
    shapeCast S3 a hc (ix3 b ch k) = a (ix4 b ch (hi k) (lo k)) :=
  shapeCast_apply a hc _ _ (by
    rw [Shape.rowMajor_val_four, Shape.rowMajor_val_three]
    show ((b.val * 512 + ch.val) * 64 + k.val / 64) * 64 + k.val % 64 = (b.val * 512 + ch.val) * 4096 + k.val
    omega)

/-- A [8192, 4096] array reshaped back, at `(b, ch, h, w)`. -/
theorem back2_apply (v : S2.Idx → α) (hc : S2.ShapeCasts S4) (b : Fin 16) (ch : Fin 512) (h w : Fin 64) :
    shapeCast S4 v hc (ix4 b ch h w) = v (ix2 (rowOf b ch) (colOf h w)) :=
  shapeCast_apply v hc _ _ (by
    rw [Shape.rowMajor_val_four, Shape.rowMajor_val_two]
    show (b.val * 512 + ch.val) * 4096 + (h.val * 64 + w.val) = ((b.val * 512 + ch.val) * 64 + h.val) * 64 + w.val
    omega)

/-- A [16, 512, 4096] array reshaped back, at `(b, ch, h, w)`. -/
theorem back3_apply (v : S3.Idx → α) (hc : S3.ShapeCasts S4) (b : Fin 16) (ch : Fin 512) (h w : Fin 64) :
    shapeCast S4 v hc (ix4 b ch h w) = v (ix3 b ch (colOf h w)) :=
  shapeCast_apply v hc _ _ (by
    rw [Shape.rowMajor_val_four, Shape.rowMajor_val_three]
    show (b.val * 512 + ch.val) * 4096 + (h.val * 64 + w.val) = ((b.val * 512 + ch.val) * 64 + h.val) * 64 + w.val
    omega)

end Cert.Flatten
-- ==== Proof.Bridge.lean ====
/-
  The two programs compute one function of their arguments.

  At entry `(b, ch, h, w)` the kernel's result is, through the [8192, 4096] view, the row function "deviation
  times the quotient of the standard deviations, plus the other mean" of row `b * 512 + ch` at `h * 64 + w`; the
  reference's is, through the [16, 512, 4096] view, the row function "deviation over its own standard deviation,
  times the other, plus the other mean" of row `(b, ch)` at the same place. Both views read the same rank-four
  entries `(b, ch, k / 64, k % 64)`, so the rows are the same, and on one row the two forms agree because a
  floored standard deviation is never zero.
-/
import proofs.«172960_j67224828117169_1_alg».proof.Proof.KernelValue
import proofs.«172960_j67224828117169_1_alg».proof.Proof.RefRows
import proofs.«172960_j67224828117169_1_alg».proof.Proof.Flatten

noncomputable section

namespace Cert.Proof.Bridge

open Idealize.ShloMosaic Idealize.ShloMosaic.ValueIdx Cert.Flatten

/-- The kernel's result and the reference's are the same function of the two argument arrays. -/
theorem result_eq (a0 a1 : S4.Idx → EReal) :
    Cert.KernelIdeal.RowValue.result a0 a1 = Cert.ReferenceIdeal.RowValue.result (F := Ideal) a0 a1 := by
  funext i
  obtain ⟨b, ch, h, w, rfl⟩ : ∃ (b : Fin 16) (ch : Fin 512) (h w : Fin 64), i = ix4 b ch h w :=
    ⟨i 0, i 1, i 2, i 3, eq_ix4 i⟩
  unfold Cert.KernelIdeal.RowValue.result Cert.ReferenceIdeal.RowValue.result
  rw [back2_apply, back3_apply, Cert.ReferenceIdeal.RowValue.rows3_apply]
  show Cert.AdaIN.scaledByQuotient
      (fun k : Fin 4096 => shapeCast S2 a0 Cert.KernelIdeal.Facts₀.shapeCasts_S16x512x64x64_S8192x4096 (ix2 (rowOf b ch) k))
      (fun k : Fin 4096 => shapeCast S2 a1 Cert.KernelIdeal.Facts₀.shapeCasts_S16x512x64x64_S8192x4096 (ix2 (rowOf b ch) k))
      (colOf h w) = _
  have rowEq : ∀ (a : S4.Idx → EReal) (hc : S4.ShapeCasts S3),
      Cert.ReferenceIdeal.RowValue.row (shapeCast S3 a hc) b ch = fun k => a (ix4 b ch (hi k) (lo k)) :=
    fun a hc => funext fun k => view3_apply a hc b ch k
  simp only [view2_apply]
  rw [rowEq, rowEq]
  exact Cert.AdaIN.scaledByQuotient_eq _ _ _

end Cert.Proof.Bridge

end
-- ==== Proof.lean ====
/-
  Adaptive instance normalisation over [16, 512, 64, 64]: each image channel, a row of 4096 entries, is
  centred, divided by its unbiased standard deviation (floored at a small constant), then scaled by the
  standard deviation and shifted by the mean of the same channel of a second array.

  The kernel normalises 256 rows of the [8192, 4096] view per grid point and writes the deviation times the
  QUOTIENT of the two standard deviations plus the second mean; the reference, over the [16, 512, 4096] view,
  divides the deviation by its own standard deviation and then multiplies by the second one, its variance
  divisor computed as 4096 - 1 under a guard that the divisor is positive. On the extended reals the two
  agree at every input: the sums, means and variances are the same terms, 4096 - 1 is what the kernel's word
  4095.0 denotes, the guard holds, and since a floored standard deviation is at least the positive floor it is
  never zero, so each quotient is a product with an inverse and the two rescalings differ only by the order
  and grouping of a product. The precondition is not used by the value claim.

  The frames of the two kernel programs are the generated class A frames; the reference's frame is its run
  as a straight line of 79 host operations with the results dropped; the idealisation rewrote nothing.
-/
import proofs.«172960_j67224828117169_1_alg».proof.Defs
import proofs.«172960_j67224828117169_1_alg».proof.Proof.Gen.Kernel
import proofs.«172960_j67224828117169_1_alg».proof.Proof.Gen.Kernel.Skeleton
import proofs.«172960_j67224828117169_1_alg».proof.Proof.Gen.Kernel.Launch
import proofs.«172960_j67224828117169_1_alg».proof.Proof.Gen.Kernel.Points
import proofs.«172960_j67224828117169_1_alg».proof.Proof.Gen.Kernel.Frame
import proofs.«172960_j67224828117169_1_alg».proof.Proof.Gen.KernelIdeal
import proofs.«172960_j67224828117169_1_alg».proof.Proof.Gen.KernelIdeal.Skeleton
import proofs.«172960_j67224828117169_1_alg».proof.Proof.Gen.KernelIdeal.Launch
import proofs.«172960_j67224828117169_1_alg».proof.Proof.Gen.KernelIdeal.Points
import proofs.«172960_j67224828117169_1_alg».proof.Proof.Gen.KernelIdeal.Frame
import proofs.«172960_j67224828117169_1_alg».proof.Proof.Gen.ReferenceIdeal
import proofs.«172960_j67224828117169_1_alg».proof.Proof.Gen.Pre_finite_inputs
import proofs.«172960_j67224828117169_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run as a straight line, the result dropped. -/
theorem frame_referenceIdeal : Cert.frame_ReferenceIdeal := fun m ρ _ =>
  (θ_run Cert.ReferenceIdeal.defs _ _).mono (fun _ h c => (h c).2) (Cert.ReferenceIdeal.RowValue.run (F := Ideal) m ρ)

/-- The idealisation rewrote no operation. -/
theorem preserves : Cert.preserves_Kernel_KernelIdeal := trivial

/-- From memories agreeing on the two arguments both programs end with the same result: each run ends at its
    program's function of the arguments, and the two functions are one. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.RowValue.run (F := Ideal) m' ρ')
  rw [(hagree c).1, (hagree c).2]
  exact (Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
